-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x256 : Shape := ⟨2, ![512, 256]⟩
abbrev S32x32x256 : Shape := ⟨3, ![32, 32, 256]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel
  bcast_S_S32x32x256 : S_.BroadcastsInDim S32x32x256 (![] : Fin 0 → Fin S32x32x256.rank)
  reducesTo_S32x32x256_S_d0_1_2 : S32x32x256.ReducesTo [0, 1, 2] S_

variable [Facts]

def fn {F : FTy → Type} [FloatOps F] (main_arg0 : FVec F S512x256 .f32) (main_arg1 : FVec F S32x32x256 .f32) : IVec S_ 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  let main_v4 : FVec F S32x32x256 .f32 := Host.absf main_arg1
  let main_cst_0 : FVec F S_ .f32 := constant S_ .f32 0x7F800000#32
  let main_v5 : FVec F S32x32x256 .f32 := broadcastInDim S32x32x256 ![] bcast_S_S32x32x256 main_cst_0
  let main_v6 : IVec S32x32x256 1 := cmpf .olt main_v4 main_v5
  let main_c_1 : IVec S_ 1 := constantI S_ 1 1#1
  let main_v7 : IVec S_ 1 := (fun x v => Host.reduce IntOp.andi x v reducesTo_S32x32x256_S_d0_1_2 h_S_) main_v6 main_c_1
  let main_v8 : IVec S_ 1 := andi main_v3 main_v7
  main_v8
-- ==== Kernel.lean ====
abbrev S512x256 : Shape := ⟨2, ![512, 256]⟩
abbrev S32x32x256 : Shape := ⟨3, ![32, 32, 256]⟩
abbrev S1024x256 : Shape := ⟨2, ![1024, 256]⟩
abbrev S512x1024 : Shape := ⟨2, ![512, 1024]⟩
abbrev S128x256 : Shape := ⟨2, ![128, 256]⟩
abbrev S128x1024 : Shape := ⟨2, ![128, 1024]⟩
abbrev S128 : Shape := ⟨1, ![128]⟩
abbrev S128x1 : Shape := ⟨2, ![128, 1]⟩
abbrev S1024 : Shape := ⟨1, ![1024]⟩
abbrev S1x1024 : Shape := ⟨2, ![1, 1024]⟩
abbrev S512x32x32 : Shape := ⟨3, ![512, 32, 32]⟩

abbrev nBuf : Space → Nat
  | .hbm => 5
  | .vmem => 5
  | .smem => 0
  | _ => 0

abbrev bufTy : (tb : Table) → Fin (tcTables nBuf tb) → BufTy
  | .hbm, ⟨0, _⟩ => ⟨S512x256, .f32⟩
  | .hbm, ⟨1, _⟩ => ⟨S32x32x256, .f32⟩
  | .hbm, ⟨2, _⟩ => ⟨S1024x256, .f32⟩
  | .hbm, ⟨3, _⟩ => ⟨S512x1024, .f32⟩
  | .hbm, ⟨4, _⟩ => ⟨S512x32x32, .f32⟩
  | .local _ .vmem, ⟨0, _⟩ => ⟨S128x256, .f32⟩
  | .local _ .vmem, ⟨1, _⟩ => ⟨S128x256, .f32⟩
  | .local _ .vmem, ⟨2, _⟩ => ⟨S1024x256, .f32⟩
  | .local _ .vmem, ⟨3, _⟩ => ⟨S128x1024, .f32⟩
  | .local _ .vmem, ⟨4, _⟩ => ⟨S128x1024, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S32x32x256_S1024x256 : S32x32x256.ShapeCasts S1024x256
  inb_S128x256_S128x256_0_0 : ∀ a, (![0, 0] : Fin 2 → Nat) a + S128x256.size a ≤ S128x256.size a
  h_S128x256 : 0 < S128x256.numel
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  reduces_S128x256_S128 : S128x256.Reduces [1] S128
  shapeCasts_S128_S128x1 : S128.ShapeCasts S128x1
  reduces_S1024x256_S1024 : S1024x256.Reduces [1] S1024
  shapeCasts_S1024_S1x1024 : S1024.ShapeCasts S1x1024
  bitsLt_bf16_f32 : FTy.bits .bf16 < FTy.bits .f32
  broadcasts_S128x1_S128x1024 : S128x1.Broadcasts S128x1024
  broadcasts_S1x1024_S128x1024 : S1x1024.Broadcasts S128x1024
  inb_S128x1024_S128x1024_0_0 : ∀ a, (![0, 0] : Fin 2 → Nat) a + S128x1024.size a ≤ S128x1024.size a
  h_S128x1024 : 0 < S128x1024.numel
  shapeCasts_S512x1024_S512x32x32 : S512x1024.ShapeCasts S512x32x32
  dot_S128x256_S1024x256_S128x1024_1_1_0_0_n_n_wf : DotDims.WF S128x256 S1024x256 S128x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x256.size a ≤ S512x256.size a
  hwx0_0 : ∀ i : grid0.Coords, EltTy.bits .f32 = 32 ∨ (Rect.block (s := S512x256) S128x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S1024x256.size a
  hwx0_1 : ∀ i : grid0.Coords, EltTy.bits .f32 = 32 ∨ (Rect.block (s := S1024x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S512x1024.size a
  hwx0_2 : ∀ i : grid0.Coords, EltTy.bits .f32 = 32 ∨ (Rect.block (s := S512x1024) S128x1024.size (cc0_transform_2 i) (hinb0_2 i)).WholeWords (EltTy.packing .f32)

variable [Facts₀]

def dot_S128x256_S1024x256_S128x1024_1_1_0_0_n_n : DotDims S128x256 S1024x256 S128x1024 where
  lhsContracting := [1]
  rhsContracting := [1]
  lhsNonContracting := [0]
  rhsNonContracting := [0]
  lhsBatch := []
  rhsBatch := []
  wf := dot_S128x256_S1024x256_S128x1024_1_1_0_0_n_n_wf

abbrev win0_0 : Pipeline.Window sig grid0 :=
  Pipeline.Window.ofSpec (Memref.whole main_arg0) S128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S512x256 : Shape := ⟨2, ![512, 256]⟩
abbrev S32x32x256 : Shape := ⟨3, ![32, 32, 256]⟩
abbrev S512x1x1x256 : Shape := ⟨4, ![512, 1, 1, 256]⟩
abbrev S1x32x32x256 : Shape := ⟨4, ![1, 32, 32, 256]⟩
abbrev S512x32x32x256 : Shape := ⟨4, ![512, 32, 32, 256]⟩
abbrev S_ : Shape := ⟨0, ![]⟩
abbrev S512x32x32 : Shape := ⟨3, ![512, 32, 32]⟩

abbrev nBuf : Space → Nat
  | .hbm => 22
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S32x32x256, .f32⟩
  | .hbm, ⟨2, _⟩ => ⟨S512x1x1x256, .f32⟩
  | .hbm, ⟨3, _⟩ => ⟨S1x32x32x256, .f32⟩
  | .hbm, ⟨4, _⟩ => ⟨S512x32x32x256, .f32⟩
  | .hbm, ⟨5, _⟩ => ⟨S512x32x32x256, .f32⟩
  | .hbm, ⟨6, _⟩ => ⟨S512x32x32x256, .f32⟩
  | .hbm, ⟨7, _⟩ => ⟨S512x32x32x256, .f32⟩
  | .hbm, ⟨8, _⟩ => ⟨S_, .f32⟩
  | .hbm, ⟨9, _⟩ => ⟨S512x32x32, .f32⟩
  | .hbm, ⟨10, _⟩ => ⟨S512x32x32, .f32⟩
  | .hbm, ⟨11, _⟩ => ⟨S_, .f32⟩
  | .hbm, ⟨12, _⟩ => ⟨S512x32x32, .f32⟩
  | .hbm, ⟨13, _⟩ => ⟨S512x32x32, .f32⟩
  | .hbm, ⟨14, _⟩ => ⟨S512x32x32, .f32⟩
  | .hbm, ⟨15, _⟩ => ⟨S_, .f32⟩
  | .hbm, ⟨16, _⟩ => ⟨S512x32x32, .f32⟩
  | .hbm, ⟨17, _⟩ => ⟨S512x32x32, .f32⟩
  | .hbm, ⟨18, _⟩ => ⟨S_, .f32⟩
  | .hbm, ⟨19, _⟩ => ⟨S512x32x32, .f32⟩
  | .hbm, ⟨20, _⟩ => ⟨S512x32x32, .f32⟩
  | .hbm, ⟨21, _⟩ => ⟨S512x32x32, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  bcast_S512x256_S512x1x1x256_0_3 : S512x256.BroadcastsInDim S512x1x1x256 (![0, 3] : Fin 2 → Fin S512x1x1x256.rank)
  bcast_S32x32x256_S1x32x32x256_1_2_3 : S32x32x256.BroadcastsInDim S1x32x32x256 (![1, 2, 3] : Fin 3 → Fin S1x32x32x256.rank)
  bcast_S1x32x32x256_S512x32x32x256_0_1_2_3 : S1x32x32x256.BroadcastsInDim S512x32x32x256 (![0, 1, 2, 3] : Fin 4 → Fin S512x32x32x256.rank)
  bcast_S512x1x1x256_S512x32x32x256_0_1_2_3 : S512x1x1x256.BroadcastsInDim S512x32x32x256 (![0, 1, 2, 3] : Fin 4 → Fin S512x32x32x256.rank)
  reducesTo_S512x32x32x256_S512x32x32_d3 : S512x32x32x256.ReducesTo [3] S512x32x32
  h_S_ : 0 < S_.numel
  bcast_S_S512x32x32 : S_.BroadcastsInDim S512x32x32 (![] : Fin 0 → Fin S512x32x32.rank)

variable [Facts₀]

class Facts : Prop extends Facts₀ where

variable [Facts]
-- ==== Proof.Spec.lean ====
/-
  The correntropy-induced metric (CIM) map of a self-organising map: for a batch row `x[b]` and a prototype
  `w[r, c]` it is `sqrt (1 - exp (-‖x[b] - w[r, c]‖² / 2) + ε)`. This file holds the mathematics only, over the
  extended reals and with no program in sight:

  * the squared distance as the reference sums it, `Σ_k (w_k - x_k)²`, and as the kernel expands it,
    `max (Σ x_k² + Σ w_k² - 2 · Σ x_k w_k) 0` (the polarization identity, clamped below at zero);
  * the two spellings of the epilogue, `exp (-s / 2)` against `exp (s · (-1/2))`;
  * that on FINITE rows the two squared distances are one number (the identity needs subtraction to cancel, which
    it does not at an infinity, hence the finiteness hypothesis; the clamp is then idle because a sum of squares
    of reals is nonnegative), and that the two epilogues agree at every extended real.
-/
import Idealize.ShloMosaic.PureOps.Ideal
import Idealize.ShloMosaic.PureOps.Ideal.Laws
import Idealize.ShloMosaic.Lib.ValueIdx

noncomputable section

open scoped BigOperators

namespace Cert.Cim

open Idealize.ShloMosaic Idealize.ShloMosaic.ValueIdx

/-! ## The two literals whose value matters -/

/-- The word `0x40000000` is the real number two. -/
theorem two_eq : Ideal.ofBits .f32 0x40000000#32 = ((2 : ℝ) : EReal) := by
  simp [Ideal.ofBits, Ideal.ieee, -EReal.coe_mul]; norm_num

/-- The word `0xBF000000` is minus one half. -/
theorem neg_half_eq : Ideal.ofBits .f32 0xBF000000#32 = ((-(1 / 2) : ℝ) : EReal) := by
  simp [Ideal.ofBits, Ideal.ieee, -EReal.coe_mul]; norm_num

/-! ## The squared distance, two ways -/

/-- `‖w - x‖²` summed coordinate by coordinate. -/
def sqDist (x w : Fin 256 → EReal) : EReal := ∑ k : Fin 256, (w k - x k) * (w k - x k)

/-- `‖x‖² + ‖w‖² - 2 ⟨x, w⟩`, clamped below at zero. -/
def sqDistExpanded (x w : Fin 256 → EReal) : EReal :=
  max ((∑ k : Fin 256, x k * x k) + (∑ k : Fin 256, w k * w k)
      - Ideal.ofBits .f32 0x40000000#32 * ∑ k : Fin 256, x k * w k) (Ideal.ofBits .f32 0x00000000#32)

/-- The coercion of a finite real sum is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The polarization identity over the reals. -/
theorem polarization (a b : Fin 256 → ℝ) :
    (∑ k, a k * a k) + (∑ k, b k * b k) - 2 * ∑ k, a k * b k = ∑ k, (b k - a k) * (b k - a k) := by
  rw [Finset.mul_sum, ← Finset.sum_add_distrib, ← Finset.sum_sub_distrib]
  exact Finset.sum_congr rfl fun k _ => by ring

/-- On finite rows the expanded, clamped form IS the squared distance. -/
theorem sqDistExpanded_eq (a b : Fin 256 → ℝ) :
    sqDistExpanded (fun k => (a k : EReal)) (fun k => (b k : EReal)) = sqDist (fun k => (a k : EReal)) (fun k => (b k : EReal)) := by
  unfold sqDistExpanded sqDist
  rw [two_eq, Ideal.ofBits_zero_f32]
  simp only [← EReal.coe_mul, ← EReal.coe_sub, ← coe_sum, ← EReal.coe_add]
  rw [polarization]
  exact max_eq_left (EReal.coe_nonneg.mpr (Finset.sum_nonneg fun k _ => mul_self_nonneg _))

/-! ## The epilogue, two ways -/

/-- `sqrt (1 - exp (-s / 2) + ε)`: the reference negates, then divides by two. -/
def cimOfRef (s : EReal) : EReal :=
  Ideal.sqrt (Ideal.ofBits .f32 0x3F800000#32 - Ideal.exp (Ideal.div (-s) (Ideal.ofBits .f32 0x40000000#32))
    + Ideal.ofBits .f32 0x322BCC77#32)

/-- `sqrt (1 - exp (s · (-1/2)) + ε)`: the kernel multiplies by minus one half. -/
def cimOfKer (s : EReal) : EReal :=
  Ideal.sqrt (Ideal.ofBits .f32 0x3F800000#32 - Ideal.exp (s * Ideal.ofBits .f32 0xBF000000#32)
    + Ideal.ofBits .f32 0x322BCC77#32)

/-- Halving the negation is multiplying by minus one half, at the infinities too. -/
theorem neg_div_two (s : EReal) : Ideal.div (-s) (Ideal.ofBits .f32 0x40000000#32) = s * Ideal.ofBits .f32 0xBF000000#32 := by
  rw [two_eq, neg_half_eq, Ideal.div_coe (by norm_num : (2 : ℝ) ≠ 0), EReal.coe_neg, neg_mul, mul_neg]

theorem cimOfKer_eq (s : EReal) : cimOfKer s = cimOfRef s := by
  unfold cimOfKer cimOfRef
  rw [neg_div_two]

/-! ## The whole map -/

/-- The CIM map of a batch `x : [512, 256]` against the prototypes `w : [32, 32, 256]`, laid out `[512, 32, 32]`:
    entry `(b, r, c)` is the epilogue of the squared distance between row `b` of `x` and prototype `(r, c)`. -/
def cimMap (x : (⟨2, ![512, 256]⟩ : Shape).Idx → EReal) (w : (⟨3, ![32, 32, 256]⟩ : Shape).Idx → EReal) :
    (⟨3, ![512, 32, 32]⟩ : Shape).Idx → EReal :=
  fun i => cimOfRef (sqDist (fun k => x (ix2 (i 0) k)) (fun k => w (ix3 (i 1) (i 2) k)))

end Cert.Cim

end
-- ==== Proof.Finite.lean ====
/-
  The precondition read back: both arguments hold real numbers. The printed predicate is the conjunction of two
  `jnp.all (|·| < +∞)`; each `all` is a reduction by `and` into one bit, so a set bit means the comparison holds at
  every entry, and an extended real whose absolute value is below `+∞` is neither infinity.
-/
import proofs.«133433_g9208409883400_cont_sun_m_1029_8_alg».proof.Pre_finite_inputs
import proofs.«133433_g9208409883400_cont_sun_m_1029_8_alg».proof.Proof.Gen.Pre_finite_inputs
import Idealize.ShloMosaic.Lib.ReduceAll
import Idealize.ShloMosaic.Lib.Affine
import Idealize.ShloMosaic.Lib.ValueIdx
import Idealize.ShloMosaic.PureOps.Ideal

noncomputable section

namespace Cert.Cim.Finite

open Idealize.ShloMosaic

instance : Subsingleton Cert.Pre_finite_inputs.S_.Idx := ⟨fun a b => funext fun d => d.elim0⟩

/-- The word `0x7F800000` is `+∞`. -/
theorem inf_eq : Ideal.ofBits .f32 0x7F800000#32 = ⊤ := by simp [Ideal.ofBits, Ideal.ieee]

/-- An extended real whose absolute value is strictly below `+∞` is a real number. -/
theorem real_of_abs_lt (x : EReal) (h : Ideal.cmp .olt (max x (-x)) (Ideal.ofBits .f32 0x7F800000#32) = 1#1) :
    ∃ r : ℝ, x = (r : EReal) := by
  rw [inf_eq] at h
  induction x using EReal.rec with
  | bot => simp [Ideal.cmp] at h
  | coe r => exact ⟨r, rfl⟩
  | top => simp [Ideal.cmp] at h

/-- Under the precondition every entry of both arguments is a real number. -/
theorem real_of_pre (x : FVec Ideal Cert.Pre_finite_inputs.S512x256 .f32) (w : FVec Ideal Cert.Pre_finite_inputs.S32x32x256 .f32)
    (h : Cert.Pre_finite_inputs.fn (F := Ideal) x w = fun _ => 1#1) :
    (∀ i, ∃ r : ℝ, x i = (r : EReal)) ∧ (∀ i, ∃ r : ℝ, w i = (r : EReal)) := by
  have h0 := congrFun h ValueIdx.ix0
  dsimp only [Cert.Pre_finite_inputs.fn] at h0
  obtain ⟨hx, hw⟩ := IntOp.andi_eq_one.mp h0
  exact ⟨fun i => real_of_abs_lt (x i) (Host.reduce_andi_all _ _ _ _ _ hx i),
    fun i => real_of_abs_lt (w i) (Host.reduce_andi_all _ _ _ _ _ hw i)⟩

end Cert.Cim.Finite

end
-- ==== Proof.RefValue.lean ====
/-
  The reference computes the CIM map: its twenty host operations, read one at a time at an output index
  `(b, r, c)`, are `sqrt (1 - exp (-(0 + Σ_k (w[r, c, k] - x[b, k])²) / 2) + ε)`. The two broadcasts of `x` read
  row `b` at coordinate `k`, the two of `w` read prototype `(r, c)` there, and the host's sum over the last axis is
  the initial zero plus the sum over `k`.
-/
import proofs.«133433_g9208409883400_cont_sun_m_1029_8_alg».proof.Proof.Gen.ReferenceIdeal.Read
import proofs.«133433_g9208409883400_cont_sun_m_1029_8_alg».proof.Proof.Spec

noncomputable section

namespace Cert.Cim.Ref

open Cert.ReferenceIdeal Cert.ReferenceIdeal.Gen Cert.ReferenceIdeal.Read
open Idealize.ShloMosaic Idealize.ShloMosaic.ValueIdx

/-- The reference's result, as a function of its two arguments, is the CIM map. -/
theorem result_eq (x : (⟨S512x256, .f32⟩ : BufTy).Contents (Elt Ideal)) (w : (⟨S32x32x256, .f32⟩ : BufTy).Contents (Elt Ideal)) :
    val_main_v15 (F := Ideal) x w = Cert.Cim.cimMap x w := by
  funext i
  -- the prototype's coordinates under the two broadcasts of `w`, and the row's under the two of `x`
  have ew : ∀ k : Fin 256, idx_main_v1 (idx_main_v2 (idx_main_v6 i k)) = ix3 (i 1) (i 2) k := fun k =>
    funext fun a => Fin.ext (by match a with | ⟨0, _⟩ => rfl | ⟨1, _⟩ => rfl | ⟨2, _⟩ => rfl)
  have ex : ∀ k : Fin 256, idx_main_v0 (idx_main_v3 (idx_main_v6 i k)) = ix2 (i 0) k := fun k =>
    funext fun a => Fin.ext (by match a with | ⟨0, _⟩ => rfl | ⟨1, _⟩ => rfl)
  rw [val_main_v15_apply, val_main_v14_apply, val_main_v12_apply, val_main_v13_apply, val_main_v11_apply,
    val_main_v10_apply, val_main_v9_apply, val_main_v8_apply, val_main_v7_apply, val_main_v6_apply]
  simp only [val_main_v5_apply, val_main_v4_apply, val_main_v2_apply, val_main_v1_apply, val_main_v3_apply,
    val_main_v0_apply, val_main_cst_apply, val_main_cst_0_apply, val_main_cst_1_apply, val_main_cst_2_apply, ew, ex,
    Ideal.hostUnary_sqrt_def, Ideal.hostUnary_exp_def, Ideal.hostDivf_def, Ideal.hostNegf_def, Ideal.negf_def,
    Ideal.addf_def, Ideal.subf_def, Ideal.mulf_def, Ideal.ofBits_def]
  unfold Cert.Cim.cimMap Cert.Cim.cimOfRef Cert.Cim.sqDist
  rw [Ideal.ofBits_zero_f32, zero_add]
  rfl

end Cert.Cim.Ref

end
-- ==== Proof.KerPayload.lean ====
/-
  The kernel's body at one entry. On a block of 128 batch rows `xb : [128, 256]` and the whole prototype table
  `wt : [1024, 256]` the body stores, at `(p, q)`,
  `sqrt (1 - exp (max (‖xb[p]‖² + ‖wt[q]‖² - 2 · ⟨xb[p], wt[q]⟩) 0 · (-1/2)) + ε)`:
  the row norms are lane sums of squares (a `[128]` sum viewed `[128, 1]` and broadcast along the columns, a `[1024]`
  sum viewed `[1, 1024]` and broadcast down the rows), and the inner products are one matrix product contracting the
  last axis of both operands, into a zero accumulator; the narrowing of the product's operands is the identity on
  extended reals.
-/
import proofs.«133433_g9208409883400_cont_sun_m_1029_8_alg».proof.Proof.Gen.KernelIdeal.Skeleton
import proofs.«133433_g9208409883400_cont_sun_m_1029_8_alg».proof.Proof.Spec
import Idealize.ShloMosaic.Lib.Pipeline.Value
import Idealize.ShloMosaic.Lib.ValueLayout
import Idealize.ShloMosaic.PureOps.Ideal.Laws

noncomputable section

namespace Cert.Cim.Ker

open Cert.KernelIdeal Cert.KernelIdeal.Gen
open Idealize.ShloMosaic Idealize.ShloMosaic.ValueIdx

/-! ## The three non-pointwise pieces, each read at `(p, q)` -/

/-- `‖xb[p]‖²` as the body forms it: square, sum along the lanes, view as a column, broadcast along the columns. -/
def rowNorms (xb : FVec Ideal S128x256 .f32) : FVec Ideal S128x1024 .f32 :=
  broadcastTo S128x1024 (shapeCast S128x1 (multiReduction .add [1] S128 (mulf xb xb) 0x00000000#32 reduces_S128x256_S128 (.inl rfl) rfl)
    shapeCasts_S128_S128x1) broadcasts_S128x1_S128x1024

/-- `‖wt[q]‖²` as the body forms it: square, sum along the lanes, view as a row, broadcast down the rows. -/
def protoNorms (wt : FVec Ideal S1024x256 .f32) : FVec Ideal S128x1024 .f32 :=
  broadcastTo S128x1024 (shapeCast S1x1024 (multiReduction .add [1] S1024
      (mulf (shapeCast S1024x256 wt shapeCasts_S1024x256_S1024x256) (shapeCast S1024x256 wt shapeCasts_S1024x256_S1024x256))
      0x00000000#32 reduces_S1024x256_S1024 (.inl rfl) rfl)
    shapeCasts_S1024_S1x1024) broadcasts_S1x1024_S128x1024

/-- `⟨xb[p], wt[q]⟩` as the body forms it: one matrix product of the narrowed operands into zero. -/
def inner (xb : FVec Ideal S128x256 .f32) (wt : FVec Ideal S1024x256 .f32) : FVec Ideal S128x1024 .f32 :=
  matmul dot_S128x256_S1024x256_S128x1024_1_1_0_0_n_n none (truncf .bf16 xb bitsLt_bf16_f32)
    (truncf .bf16 (shapeCast S1024x256 wt shapeCasts_S1024x256_S1024x256) bitsLt_bf16_f32) (constant S128x1024 .f32 0x00000000#32)

/-- A lane sum of a `[128, 256]` vector at row `p`. -/
theorem laneSum128 (v : FVec Ideal S128x256 .f32) (hφ : FKind.Formats .f32)
    (hacc : (0x00000000#32 : BitVec 32) = FKind.add.neutral .f32 hφ) (p : Fin 128) :
    multiReduction .add [1] S128 v 0x00000000#32 reduces_S128x256_S128 hφ hacc (ix1 p) = ∑ k : Fin 256, v (ix2 p k) :=
  (Ideal.multiReduction_add_single v 0x00000000#32 reduces_S128x256_S128 hφ hacc (ix1 p)).trans
    (Finset.sum_congr rfl fun k _ => congrArg v (funext fun a => Fin.ext (by match a with | ⟨0, _⟩ => rfl | ⟨1, _⟩ => rfl)))

/-- A lane sum of a `[1024, 256]` vector at row `q`. -/
theorem laneSum1024 (v : FVec Ideal S1024x256 .f32) (hφ : FKind.Formats .f32)
    (hacc : (0x00000000#32 : BitVec 32) = FKind.add.neutral .f32 hφ) (q : Fin 1024) :
    multiReduction .add [1] S1024 v 0x00000000#32 reduces_S1024x256_S1024 hφ hacc (ix1 q) = ∑ k : Fin 256, v (ix2 q k) :=
  (Ideal.multiReduction_add_single v 0x00000000#32 reduces_S1024x256_S1024 hφ hacc (ix1 q)).trans
    (Finset.sum_congr rfl fun k _ => congrArg v (funext fun a => Fin.ext (by match a with | ⟨0, _⟩ => rfl | ⟨1, _⟩ => rfl)))

/-- A `[128]` vector viewed as a column `[128, 1]` reads its entry `p` at `(p, 0)`. -/
theorem column_apply (v : FVec Ideal S128 .f32) (h : S128.ShapeCasts S128x1) (p : Fin 128) :
    shapeCast S128x1 v h (ix2 p (0 : Fin 1)) = v (ix1 p) :=
  shapeCast_apply v h _ _ (by
    rw [Shape.rowMajor_val_two, Shape.rowMajor_val_one]
    show p.val = p.val * 1 + 0
    omega)

/-- A column `[128, 1]` broadcast to `[128, 1024]` reads, at `(p, q)`, the column at `p`. -/
theorem alongColumns_apply (v : FVec Ideal S128x1 .f32) (h : S128x1.Broadcasts S128x1024) (p : Fin 128) (q : Fin 1024) :
    broadcastTo S128x1024 v h (ix2 p q) = v (ix2 p (0 : Fin 1)) := by
  refine broadcastTo_apply v h (ix2 p q) (ix2 p (0 : Fin 1)) fun ax => ?_
  match ax with
  | ⟨0, _⟩ =>
    show p.val = if (128 : Nat) = 1 then 0 else p.val
    rw [if_neg (by decide)]
  | ⟨1, _⟩ =>
    show 0 = if (1 : Nat) = 1 then 0 else q.val
    rw [if_pos rfl]

theorem rowNorms_apply (xb : FVec Ideal S128x256 .f32) (p : Fin 128) (q : Fin 1024) :
    rowNorms xb (ix2 p q) = ∑ k : Fin 256, xb (ix2 p k) * xb (ix2 p k) := by
  unfold rowNorms
  rw [alongColumns_apply, column_apply]
  exact laneSum128 _ _ _ p

theorem protoNorms_apply (wt : FVec Ideal S1024x256 .f32) (p : Fin 128) (q : Fin 1024) :
    protoNorms wt (ix2 p q) = ∑ k : Fin 256, wt (ix2 q k) * wt (ix2 q k) := by
  unfold protoNorms
  rw [broadcastTo_1b_ab_apply, shapeCast_a_1a_apply, shapeCast_self]
  exact laneSum1024 _ _ _ q

/-! ## The matrix product at `(p, q)` -/

/-- Axis 0 of the left operand is free: it carries the output's row. -/
theorem lhs_0 (i : S128x1024.Idx) (r : dot_S128x256_S1024x256_S128x1024_1_1_0_0_n_n.contr.Idx) :
    (dot_S128x256_S1024x256_S128x1024_1_1_0_0_n_n.lhsIdx i r 0).val = (i 0).val := by
  unfold DotDims.lhsIdx
  rw [dif_neg (show ¬(0 : Fin S128x256.rank) ∈ dot_S128x256_S1024x256_S128x1024_1_1_0_0_n_n.lhsBatch by decide),
    dif_pos (show (0 : Fin S128x256.rank) ∈ dot_S128x256_S1024x256_S128x1024_1_1_0_0_n_n.lhsNonContracting by decide)]
  rfl
/-- Axis 1 of the left operand is the contracted one. -/
theorem lhs_1 (i : S128x1024.Idx) (r : dot_S128x256_S1024x256_S128x1024_1_1_0_0_n_n.contr.Idx) :
    (dot_S128x256_S1024x256_S128x1024_1_1_0_0_n_n.lhsIdx i r 1).val = (r ⟨0, by decide⟩).val :=
  dot_S128x256_S1024x256_S128x1024_1_1_0_0_n_n.lhsIdx_val_of_single rfl i r
/-- Axis 0 of the right operand is free: it carries the output's column. -/
theorem rhs_0 (i : S128x1024.Idx) (r : dot_S128x256_S1024x256_S128x1024_1_1_0_0_n_n.contr.Idx) :
    (dot_S128x256_S1024x256_S128x1024_1_1_0_0_n_n.rhsIdx i r 0).val = (i 1).val := by
  unfold DotDims.rhsIdx
  rw [dif_neg (show ¬(0 : Fin S1024x256.rank) ∈ dot_S128x256_S1024x256_S128x1024_1_1_0_0_n_n.rhsBatch by decide),
    dif_pos (show (0 : Fin S1024x256.rank) ∈ dot_S128x256_S1024x256_S128x1024_1_1_0_0_n_n.rhsNonContracting by decide)]
  rfl
/-- Axis 1 of the right operand is the contracted one. -/
theorem rhs_1 (i : S128x1024.Idx) (r : dot_S128x256_S1024x256_S128x1024_1_1_0_0_n_n.contr.Idx) :
    (dot_S128x256_S1024x256_S128x1024_1_1_0_0_n_n.rhsIdx i r 1).val = (r ⟨0, by decide⟩).val :=
  dot_S128x256_S1024x256_S128x1024_1_1_0_0_n_n.rhsIdx_val_of_single rfl i r

theorem inner_apply (xb : FVec Ideal S128x256 .f32) (wt : FVec Ideal S1024x256 .f32) (p : Fin 128) (q : Fin 1024) :
    inner xb wt (ix2 p q) = ∑ k : Fin 256, xb (ix2 p k) * wt (ix2 q k) := by
  unfold inner
  simp only [matmul]
  rw [Ideal.matmul_constant_zero_apply, shapeCast_self,
    ← Equiv.sum_comp (contrEquiv1 dot_S128x256_S1024x256_S128x1024_1_1_0_0_n_n 256 rfl rfl).symm]
  refine Finset.sum_congr rfl fun k _ => ?_
  have hk := contrEquiv1_symm_val dot_S128x256_S1024x256_S128x1024_1_1_0_0_n_n 256 rfl rfl k
  have el : dot_S128x256_S1024x256_S128x1024_1_1_0_0_n_n.lhsIdx (ix2 p q)
      ((contrEquiv1 dot_S128x256_S1024x256_S128x1024_1_1_0_0_n_n 256 rfl rfl).symm k) = ix2 p k := funext fun a => Fin.ext (by
    match a with
    | ⟨0, _⟩ => exact lhs_0 _ _
    | ⟨1, _⟩ => exact (lhs_1 _ _).trans hk)
  have er : dot_S128x256_S1024x256_S128x1024_1_1_0_0_n_n.rhsIdx (ix2 p q)
      ((contrEquiv1 dot_S128x256_S1024x256_S128x1024_1_1_0_0_n_n 256 rfl rfl).symm k) = ix2 q k := funext fun a => Fin.ext (by
    match a with
    | ⟨0, _⟩ => exact rhs_0 _ _
    | ⟨1, _⟩ => exact (rhs_1 _ _).trans hk)
  rw [el, er]
  rfl

/-! ## The body's stored value at `(p, q)` -/

/-- The body's one store, at `(p, q)`, is the kernel's spelling of the CIM entry of row `p` of the batch block against
    row `q` of the prototype table. -/
theorem pay_apply (xb : Vec Ideal S128x256 .f32) (wt : Vec Ideal S1024x256 .f32) (p : Fin 128) (q : Fin 1024) :
    k0_pay1 (F := Ideal) xb wt (ix2 p q)
      = Cert.Cim.cimOfKer (Cert.Cim.sqDistExpanded (fun k => xb (ix2 p k)) (fun k => wt (ix2 q k))) := by
  unfold Cert.Cim.cimOfKer Cert.Cim.sqDistExpanded
  rw [← rowNorms_apply xb p q, ← protoNorms_apply wt p q, ← inner_apply xb wt p q]
  rfl

end Cert.Cim.Ker

end
-- ==== Proof.KerValue.lean ====
/-
  What the kernel's program leaves in its result. The prototypes `w : [32, 32, 256]` are first laid out flat as a
  table `[1024, 256]` (row `32 r + c` is prototype `(r, c)`). The grid has four points; point `t` takes the 128 batch
  rows `128 t … 128 t + 127` and the whole table and writes back rows `128 t … 128 t + 127` of a `[512, 1024]` array:
  entry `(b, n)` is the kernel's spelling of the CIM entry of batch row `b` against table row `n`. The four blocks
  tile the array, so after the region it is that function everywhere; the last host line lays it out
  `[512, 32, 32]`, entry `(b, r, c)` being entry `(b, 32 r + c)`.
-/
import proofs.«133433_g9208409883400_cont_sun_m_1029_8_alg».proof.Proof.Gen.KernelIdeal.Frame
import proofs.«133433_g9208409883400_cont_sun_m_1029_8_alg».proof.Proof.KerPayload
import Idealize.ShloMosaic.Lib.Pipeline.Value
import Idealize.ShloMosaic.Lib.StableHlo.Run

set_option maxRecDepth 16384

noncomputable section

namespace Cert.Cim.KerValue

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The flat map the region computes -/

/-- Entry `(b, n)` of the region's output: batch row `b` against table row `n`, in the kernel's spelling. -/
def flatMap (x : FVec Ideal S512x256 .f32) (wt : FVec Ideal S1024x256 .f32) : FVec Ideal S512x1024 .f32 :=
  fun i => Cert.Cim.cimOfKer (Cert.Cim.sqDistExpanded (fun k => x (ix2 (i 0) k)) (fun k => wt (ix2 (i 1) k)))

theorem zeros : (![0, 0] : Fin 2 → Nat) = fun _ => 0 := funext fun a => by fin_cases a <;> rfl

/-- The three index maps over the grid: the batch window and the output window move together along the rows, and
    the table window stays put. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT `t` WRITES BACK is block `t` of the flat map of the arrays as the region finds them. -/
theorem flushed_eq (c : Dev nD) (t : Fin cfg0.N) :
    (dats m 0 c).flushed 2 t = ((cfg0.win 2).blk t).view.read (Elt Ideal) (flatMap (V m c main_arg0) (V m c main_v0)) := by
  show (cfg0.win 2).cut (grid0.coords t) ((dats m 0 c).after 2 t) = _
  rw [after0_2]
  unfold out0_2
  rw [View.canon_unit_zero zeros]
  simp only [View.ld_unit_zero (S := S128x256) zeros, View.ld_unit_zero (S := S1024x256) zeros]
  obtain ⟨e0, e1, e2, e3, e4, e5⟩ := idx_facts t
  funext j
  obtain ⟨p, q, rfl⟩ : ∃ (p : Fin 128) (q : Fin 1024), j = ix2 p q := ⟨j 0, j 1, eq_ix2 j⟩
  refine (Cert.Cim.Ker.pay_apply (iblk m c 0 t) (iblk m c 1 t) p q).trans ?_
  show Cert.Cim.cimOfKer (Cert.Cim.sqDistExpanded (fun k => V m c main_arg0 (((cfg0.win 0).blk t).view.emb (ix2 p k)))
      (fun k => V m c main_v0 (((cfg0.win 1).blk t).view.emb (ix2 q k))))
    = Cert.Cim.cimOfKer (Cert.Cim.sqDistExpanded (fun k => V m c main_arg0 (ix2 ((((cfg0.win 2).blk t).view.emb (ix2 p q)) 0) k))
      (fun k => V m c main_v0 (ix2 ((((cfg0.win 2).blk t).view.emb (ix2 p q)) 1) k)))
  have h0 : ∀ k : Fin 256, ((cfg0.win 0).blk t).view.emb (ix2 p k) = ix2 ((((cfg0.win 2).blk t).view.emb (ix2 p q)) 0) k := fun k => by
    funext a; apply Fin.ext
    match a with
    | ⟨0, _⟩ => show win0_0.index t (0 : Fin 2) * 128 + 1 * p.val = win0_2.index t (0 : Fin 2) * 128 + 1 * p.val; omega
    | ⟨1, _⟩ => show win0_0.index t (1 : Fin 2) * 256 + 1 * k.val = k.val; omega
  have h1 : ∀ k : Fin 256, ((cfg0.win 1).blk t).view.emb (ix2 q k) = ix2 ((((cfg0.win 2).blk t).view.emb (ix2 p q)) 1) k := fun k => by
    funext a; apply Fin.ext
    match a with
    | ⟨0, _⟩ => show win0_1.index t (0 : Fin 2) * 1024 + 1 * q.val = win0_2.index t (1 : Fin 2) * 1024 + 1 * q.val; omega
    | ⟨1, _⟩ => show win0_1.index t (1 : Fin 2) * 256 + 1 * k.val = k.val; omega
  simp only [h0, h1]
  rfl

/-- An index of the `[512, 1024]` array is in point `t`'s block iff each coordinate is in the block's range. -/
theorem mem_blk (t : Fin cfg0.N) (i : S512x1024.Idx) :
    i ∈ ((cfg0.win 2).blk t).view.set ↔ ∀ a : Fin 2, win0_2.index t a * S128x1024.size a ≤ (i a).val ∧ (i a).val < win0_2.index t a * S128x1024.size a + S128x1024.size a := by
  show i ∈ ((View.whole main_v1).slice (win0_2.rect t)).set ↔ _
  rw [View.set_slice_whole, Rect.mem_set_unit]
  exact Iff.rfl

/-- Every index is in the block of the point its row falls in: the four row blocks tile the array. -/
theorem cover (i : S512x1024.Idx) : ∃ t : Fin cfg0.N, (cfg0.win 2).flush t = true ∧ i ∈ ((cfg0.win 2).blk t).view.set := by
  have hi0 : (i 0).val < 512 := (i 0).isLt
  have hi1 : (i 1).val < 1024 := (i 1).isLt
  have hN : cfg0.N = 4 := N_0
  refine ⟨⟨(i 0).val / 128, by rw [hN]; omega⟩, flush0_2 _, ?_⟩
  rw [mem_blk]
  obtain ⟨-, -, -, -, e4, e5⟩ := idx_facts ⟨(i 0).val / 128, by rw [hN]; omega⟩
  intro a
  match a with
  | ⟨0, _⟩ =>
    show win0_2.index _ (0 : Fin 2) * 128 ≤ (i 0).val ∧ (i 0).val < win0_2.index _ (0 : Fin 2) * 128 + 128
    rw [e4]; show (i 0).val / 128 * 128 ≤ (i 0).val ∧ (i 0).val < (i 0).val / 128 * 128 + 128; omega
  | ⟨1, _⟩ =>
    show win0_2.index _ (1 : Fin 2) * 1024 ≤ (i 1).val ∧ (i 1).val < win0_2.index _ (1 : Fin 2) * 1024 + 1024
    rw [e5]; omega

/-- THE ARRAY after the region: the flat map of the arrays as the region finds them. -/
theorem final (c : Dev nD) : (dats m 0 c).arrAt 2 cfg0.N = flatMap (V m c main_arg0) (V m c main_v0) :=
  (dats m 0 c).arrAt_eq_of_cover 2 (flatMap (V m c main_arg0) (V m c main_v0)) (fun t _ => flushed_eq m c t) cover

/-! ## The host line before the region, and the one after it -/

/-- The table the region finds is the prototypes laid out flat. -/
theorem table_eq (c : Dev nD) :
    (V m c main_v0 : S1024x256.Idx → EReal) = shapeCast S1024x256 (m ((c : Thread nD τ).loc main_arg1)) shapeCasts_S32x32x256_S1024x256 := by
  show StableHlo.after hostOps0 (fun b => m (c, b)) (Proc.devRef .tc main_v0) = _
  after_results
  rfl

/-- The program's result is the region's output laid out `[512, 32, 32]`. -/
theorem result_eq (c : Dev nD) :
    (Pipeline.afterTail₀ cfgs (dats m) 0 (V0 m) [hostOps1] c main_v2 : S512x32x32.Idx → EReal)
      = shapeCast S512x32x32 (flatMap (m ((c : Thread nD τ).loc main_arg0))
          (shapeCast S1024x256 (m ((c : Thread nD τ).loc main_arg1)) shapeCasts_S32x32x256_S1024x256)) shapeCasts_S512x1024_S512x32x32 := by
  unfold Pipeline.afterTail₀
  show StableHlo.after hostOps1 _ (Proc.devRef .tc main_v2) = _
  after_results
  rw [(Pipeline.withArrays_arr spec0 launch0.win.arr_inj c _ _ 2).trans (final m c), table_eq, V_main_arg0]
  rfl

/-! ## The run, read -/

/-- Every weakly fair execution of the kernel's program ends with its result at that array and its arguments unchanged. -/
theorem run : θ_run defs (onTc (τ := τ) (main (F := Ideal))) ⟨m, fun _ => 0, ρ⟩ fun r => ∀ c : Dev nD,
      r.2.mem ((c.tc : Thread nD τ).loc main_v2)
        = shapeCast S512x32x32 (flatMap (m ((c : Thread nD τ).loc main_arg0))
            (shapeCast S1024x256 (m ((c : Thread nD τ).loc main_arg1)) shapeCasts_S32x32x256_S1024x256)) shapeCasts_S512x1024_S512x32x32
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v2 (Pipeline.mem_restRefs_of main_v2 (by decide) (by decide))).trans (result_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.Cim.KerValue

end
-- ==== Proof.Bridge.lean ====
/-
  The kernel's result is the CIM map. Entry `(b, r, c)` of the result is entry `(b, 32 r + c)` of the flat map, whose
  table row `32 r + c` is prototype `(r, c)`; so it is the kernel's epilogue of the expanded, clamped squared distance
  between batch row `b` and prototype `(r, c)`. On real entries the expanded form is the squared distance (the
  polarization identity, the clamp idle) and the two epilogues agree everywhere.
-/
import proofs.«133433_g9208409883400_cont_sun_m_1029_8_alg».proof.Proof.Spec
import Idealize.ShloMosaic.Lib.Pipeline.Value

noncomputable section

namespace Cert.Cim

open Idealize.ShloMosaic Idealize.ShloMosaic.ValueIdx

/-- The flat map `[512, 1024]` of a batch against a table of 1024 rows, in the kernel's spelling, viewed `[512, 32, 32]`
    over the flat layout of the prototypes, is the CIM map when every entry of both arguments is a real number. -/
theorem flat_eq_cimMap (X : (⟨2, ![512, 256]⟩ : Shape).Idx → EReal) (W : (⟨3, ![32, 32, 256]⟩ : Shape).Idx → EReal)
    (hflat : (⟨3, ![32, 32, 256]⟩ : Shape).ShapeCasts ⟨2, ![1024, 256]⟩)
    (hview : (⟨2, ![512, 1024]⟩ : Shape).ShapeCasts ⟨3, ![512, 32, 32]⟩)
    (hX : ∀ i, ∃ r : ℝ, X i = (r : EReal)) (hW : ∀ i, ∃ r : ℝ, W i = (r : EReal)) :
    shapeCast ⟨3, ![512, 32, 32]⟩
        (fun i : (⟨2, ![512, 1024]⟩ : Shape).Idx => cimOfKer (sqDistExpanded (fun k => X (ix2 (i 0) k))
          (fun k => shapeCast ⟨2, ![1024, 256]⟩ W hflat (ix2 (i 1) k)))) hview
      = cimMap X W := by
  funext i
  obtain ⟨b, r, c, rfl⟩ : ∃ (b : Fin 512) (r c : Fin 32), i = ix3 b r c := ⟨i 0, i 1, i 2, eq_ix3 i⟩
  have hn : 32 * r.val + c.val < 1024 := by have := r.isLt; have := c.isLt; omega
  -- the view: entry (b, r, c) is entry (b, 32 r + c) of the flat map
  rw [shapeCast_apply _ hview (ix3 b r c) (ix2 b (⟨32 * r.val + c.val, hn⟩ : Fin 1024)) (by
    rw [Shape.rowMajor_val_two, Shape.rowMajor_val_three]
    show b.val * 1024 + (32 * r.val + c.val) = (b.val * 32 + r.val) * 32 + c.val
    omega)]
  -- the table: row 32 r + c is prototype (r, c)
  have hw : ∀ k : Fin 256, shapeCast ⟨2, ![1024, 256]⟩ W hflat (ix2 (⟨32 * r.val + c.val, hn⟩ : Fin 1024) k) = W (ix3 r c k) := fun k =>
    shapeCast_apply W hflat _ _ (by
      rw [Shape.rowMajor_val_three, Shape.rowMajor_val_two]
      show (r.val * 32 + c.val) * 256 + k.val = (32 * r.val + c.val) * 256 + k.val
      omega)
  choose a ha using hX
  choose w hw' using hW
  show cimOfKer (sqDistExpanded (fun k => X (ix2 b k))
      (fun k => shapeCast ⟨2, ![1024, 256]⟩ W hflat (ix2 (⟨32 * r.val + c.val, hn⟩ : Fin 1024) k)))
    = cimOfRef (sqDist (fun k => X (ix2 b k)) (fun k => W (ix3 r c k)))
  simp only [hw, ha, hw']
  rw [cimOfKer_eq, sqDistExpanded_eq (fun k => a (ix2 b k)) (fun k => w (ix3 r c k))]

end Cert.Cim

end
-- ==== Proof.lean ====
/-
  The kernel computes the correntropy-induced metric map of a self-organising map,
  `cim[b, r, c] = sqrt (1 - exp (-‖x[b] - w[r, c]‖² / 2) + ε)`, and so does its reference; over the extended reals,
  on finite inputs, the two results are equal entry by entry.

  The reference forms the difference `w[r, c] - x[b]`, squares it, sums over the last axis, negates, halves,
  exponentiates, and takes the root of `1 - · + ε` (Proof/RefValue.lean). The kernel lays the prototypes out as a table
  of 1024 rows and, for each block of 128 batch rows, expands the squared distance as
  `‖x[b]‖² + ‖w[n]‖² - 2 ⟨x[b], w[n]⟩` with the inner products as one matrix product, clamps it below at zero,
  multiplies by `-1/2`, and applies the same exponential, subtraction, `ε` and root (Proof/KerPayload.lean for one
  entry, Proof/KerValue.lean for the whole array and the two re-layouts around the region). The two agree because, on
  real numbers, the polarization identity holds and a sum of squares is nonnegative, so the clamp is idle; and halving a
  negation is multiplying by `-1/2` at every extended real (Proof/Spec.lean, Proof/Bridge.lean). Finiteness of the
  inputs, which the identity needs (it cancels, and infinities do not), is the precondition (Proof/Finite.lean).
  The two constants `1` and `ε` are the same words on both sides and are never evaluated.
-/
import proofs.«133433_g9208409883400_cont_sun_m_1029_8_alg».proof.Defs
import proofs.«133433_g9208409883400_cont_sun_m_1029_8_alg».proof.Proof.Gen.Kernel
import proofs.«133433_g9208409883400_cont_sun_m_1029_8_alg».proof.Proof.Gen.Kernel.Skeleton
import proofs.«133433_g9208409883400_cont_sun_m_1029_8_alg».proof.Proof.Gen.Kernel.Launch
import proofs.«133433_g9208409883400_cont_sun_m_1029_8_alg».proof.Proof.Gen.Kernel.Points
import proofs.«133433_g9208409883400_cont_sun_m_1029_8_alg».proof.Proof.Gen.Kernel.Frame
import proofs.«133433_g9208409883400_cont_sun_m_1029_8_alg».proof.Proof.Gen.KernelIdeal
import proofs.«133433_g9208409883400_cont_sun_m_1029_8_alg».proof.Proof.Gen.KernelIdeal.Skeleton
import proofs.«133433_g9208409883400_cont_sun_m_1029_8_alg».proof.Proof.Gen.KernelIdeal.Launch
import proofs.«133433_g9208409883400_cont_sun_m_1029_8_alg».proof.Proof.Gen.KernelIdeal.Points
import proofs.«133433_g9208409883400_cont_sun_m_1029_8_alg».proof.Proof.Gen.KernelIdeal.Frame
import proofs.«133433_g9208409883400_cont_sun_m_1029_8_alg».proof.Proof.Gen.ReferenceIdeal
import proofs.«133433_g9208409883400_cont_sun_m_1029_8_alg».proof.Proof.Gen.Pre_finite_inputs
import proofs.«133433_g9208409883400_cont_sun_m_1029_8_alg».proof.Proof.Gen.ReferenceIdeal.Run
import proofs.«133433_g9208409883400_cont_sun_m_1029_8_alg».proof.Proof.Gen.ReferenceIdeal.Read
import proofs.«133433_g9208409883400_cont_sun_m_1029_8_alg».proof.Proof.Spec
import proofs.«133433_g9208409883400_cont_sun_m_1029_8_alg».proof.Proof.Finite
import proofs.«133433_g9208409883400_cont_sun_m_1029_8_alg».proof.Proof.RefValue
import proofs.«133433_g9208409883400_cont_sun_m_1029_8_alg».proof.Proof.KerValue
import proofs.«133433_g9208409883400_cont_sun_m_1029_8_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end at the CIM map of the (agreeing, finite) arguments. -/
theorem algebraic : Cert.algebraic_KernelIdeal_ReferenceIdeal := by
  intro m ρ m' ρ' hpre hagree
  refine ⟨fun c => Cert.Cim.cimMap (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun r h c => ⟨(h c).1.trans ?_, (h c).2⟩) (Cert.Cim.KerValue.run m ρ)
    obtain ⟨hX, hW⟩ := Cert.Cim.Finite.real_of_pre _ _ (hpre c)
    exact Cert.Cim.flat_eq_cimMap _ _ _ _ hX hW
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v15_eq, Cert.Cim.Ref.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
